-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x1600000 32) (main_arg2 : FVec F S1600000x128 .f32) (main_arg3 : FVec F S256x256 .f32) (main_arg4 : FVec F S256 .f32) (main_arg5 : FVec F S256x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x128 : Shape := ⟨2, ![50000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x256 : Shape := ⟨2, ![1, 256]⟩
abbrev S1x128 : Shape := ⟨2, ![1, 128]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩

abbrev nBuf : Space → Nat
  | .hbm => 20
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S50000x128, .f32⟩
  | .hbm, ⟨13, _⟩ => ⟨S1600000x1, .i32⟩
  | .hbm, ⟨14, _⟩ => ⟨S50000x128, .f32⟩
  | .hbm, ⟨15, _⟩ => ⟨S1x256, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S50000x128 : S_.BroadcastsInDim S50000x128 (![] : Fin 0 → Fin S50000x128.rank)
  bcast_S1600000_S1600000x1_0 : S1600000.BroadcastsInDim S1600000x1 (![0] : Fin 1 → Fin S1600000x1.rank)
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  scatter_S50000x128_S1600000x1_S1600000x128_1_0_0_1_wf : ScatterDims.WF S50000x128 S1600000x1 S1600000x128 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)

variable [Facts₀]

def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x256 : Shape := ⟨2, ![50000, 256]⟩
abbrev S1x256 : Shape := ⟨2, ![1, 256]⟩
abbrev S1x128 : Shape := ⟨2, ![1, 128]⟩
abbrev S50000 : Shape := ⟨1, ![50000]⟩
abbrev S50000x1 : Shape := ⟨2, ![50000, 1]⟩

abbrev nBuf : Space → Nat
  | .hbm => 63
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S50000x128, .f32⟩
  | .hbm, ⟨13, _⟩ => ⟨S1600000x1, .i32⟩
  | .hbm, ⟨14, _⟩ => ⟨S50000x128, .f32⟩
  | .hbm, ⟨15, _⟩ => ⟨S50000x256, .f32⟩
  | .hbm, ⟨16, _⟩ => ⟨S50000x256, .f32⟩
  | .hbm, ⟨17, _⟩ => ⟨S1x256, .f32⟩
  | .hbm, ⟨18, _⟩ => ⟨S50000x256, .f32⟩
  | .hbm, ⟨19, _⟩ => ⟨S50000x256, .f32⟩
  | .hbm, ⟨20, _⟩ => ⟨S50000x256, .f32⟩
  | .hbm, ⟨21, _⟩ => ⟨S50000x256, .f32⟩
  | .hbm, ⟨22, _⟩ => ⟨S_, .f32⟩
  | .hbm, ⟨23, _⟩ => ⟨S50000x256, .f32⟩
  | .hbm, ⟨24, _⟩ => ⟨S50000x256, .f32⟩
  | .hbm, ⟨25, _⟩ => ⟨S_, .f32⟩
  | .hbm, ⟨26, _⟩ => ⟨S50000x256, .f32⟩
  | .hbm, ⟨27, _⟩ => ⟨S50000x256, .f32⟩
  | .hbm, ⟨28, _⟩ => ⟨S50000x256, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000, .f32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S50000x128 : S_.BroadcastsInDim S50000x128 (![] : Fin 0 → Fin S50000x128.rank)
  bcast_S1600000_S1600000x1_0 : S1600000.BroadcastsInDim S1600000x1 (![0] : Fin 1 → Fin S1600000x1.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000x128_S1600000x1_S1600000x128_1_0_0_1_wf : ScatterDims.WF S50000x128 S1600000x1 S1600000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RowMlp.lean ====
/-
  One output row of the message-passing block, as a function on the extended reals.

  A node's row of features `xr` and its row of aggregated edge features `ar` are joined into one row of 256
  entries; an affine layer to 256 entries, the gate `z ↦ z · 1/(1 + e^(-z))`, an affine layer back to 128 entries,
  a normalisation of that row (subtract its mean, divide by the root of its mean square deviation plus a small
  constant), a per-lane scale and shift, and the node's own row added back.

  Every sum here is a plain finite sum of extended reals and every operation is the exact one; nothing depends
  on how many rows an array has or on how the rows are grouped into blocks, so the same function describes a block of
  rows and the whole array.
-/
import Idealize.ShloMosaic.PureOps.Ideal
import Idealize.ShloMosaic.PureOps.Ideal.Laws

noncomputable section

namespace Cert.RowMlp

open Idealize.ShloMosaic

/-- The number of lanes of a row, `128`, as the float word both programs divide by. -/
abbrev lanes : EReal := Ideal.ofBits .f32 0x43000000#32

/-- The small constant added under the root, as the float word both programs carry. -/
abbrev stab : EReal := Ideal.ofBits .f32 0x3727C5AC#32

/-- The joined row: the node's 128 entries, then the aggregate's 128 entries. -/
def joined (xr ar : Fin 128 → EReal) (k : Fin 256) : EReal :=
  if h : k.val < 128 then xr ⟨k.val, h⟩ else ar ⟨k.val - 128, by have := k.isLt; omega⟩

/-- The first affine layer at hidden unit `n`: the joined row against column `n` of the weights, plus the bias. -/
def hidden (u : Fin 256 → EReal) (w1 : Fin 256 → Fin 256 → EReal) (b1 : Fin 256 → EReal) (n : Fin 256) : EReal :=
  (∑ k : Fin 256, u k * w1 k n) + b1 n

/-- The gate `z · 1/(1 + e^(-z))`. -/
def gate (z : EReal) : EReal := z * Ideal.logistic z

/-- The second affine layer at lane `j`. -/
def proj (g : Fin 256 → EReal) (w2 : Fin 256 → Fin 128 → EReal) (b2 : Fin 128 → EReal) (j : Fin 128) : EReal :=
  (∑ n : Fin 256, g n * w2 n j) + b2 j

/-- The mean of a row's 128 lanes. -/
def mean (h : Fin 128 → EReal) : EReal := Ideal.div (∑ j : Fin 128, h j) lanes

/-- A row with its mean subtracted. -/
def centred (h : Fin 128 → EReal) (j : Fin 128) : EReal := h j - mean h

/-- The mean square deviation of a row. -/
def spread (h : Fin 128 → EReal) : EReal := Ideal.div (∑ j : Fin 128, centred h j * centred h j) lanes

/-- A centred row divided by the root of its mean square deviation plus the small constant. -/
def scaled (h : Fin 128 → EReal) (j : Fin 128) : EReal := centred h j * Ideal.rsqrt (spread h + stab)

/-- The row after the two layers, before normalisation. -/
def layers (xr ar : Fin 128 → EReal) (w1 : Fin 256 → Fin 256 → EReal) (b1 : Fin 256 → EReal)
    (w2 : Fin 256 → Fin 128 → EReal) (b2 : Fin 128 → EReal) (j : Fin 128) : EReal :=
  proj (fun n => gate (hidden (joined xr ar) w1 b1 n)) w2 b2 j

/-- Lane `j` of the output row. -/
def rowOut (xr ar : Fin 128 → EReal) (w1 : Fin 256 → Fin 256 → EReal) (b1 : Fin 256 → EReal)
    (w2 : Fin 256 → Fin 128 → EReal) (b2 gm bt : Fin 128 → EReal) (j : Fin 128) : EReal :=
  xr j + (scaled (layers xr ar w1 b1 w2 b2) j * gm j + bt j)

end Cert.RowMlp

end
-- ==== Proof.LibKeepdimsColumn.lean ====
/-
  The column forms of a keepdims reduction, read at an index given by coordinates.

  A row-wise reduction with `keepdims=True` leaves an `[a]` vector that the body first re-lays as a column `[a, 1]`
  and later spreads over the row's `b` lanes. Both steps move no data: the column holds entry `i` of the vector at
  `(i, 0)`, and the spread array holds at `(p, c)` the column's entry of row `p`, whatever the lane `c`.
  These are the two lemmas Lib/ValueLayout.lean has for the ROW forms (`[a] → [1, a]`, `[1, b] → [a, b]`) stated for the
  column forms, over indices written `ix1` / `ix2`.
-/
import Idealize.ShloMosaic.Lib.ValueIdx
import Idealize.ShloMosaic.Lib.Pipeline.Value

namespace Idealize.ShloMosaic.ValueIdx

open Idealize.ShloMosaic

variable {α : Type}

/-- An `[a]` array cast to `[a, 1]` reads, at `(i, u)`, the operand at `i`, whatever the unit coordinate `u`:
    the row-major position of `(i, u)` in `[a, 1]` is `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is
    read at `0`, the row axis at `p` (also when `a = 1`, where `p = 0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.BlockRows.lean ====
/-
  The idealized kernel's body on one block of 2000 rows, read one entry at a time.

  The body joins the block of node rows with the block of aggregated rows, multiplies by the first weight matrix,
  adds the bias row, gates, multiplies by the second weight matrix, adds its bias row, and normalises every row of
  the block by that row's own mean and mean square deviation. Each of these steps acts on a row at a time: entry
  `(p, j)` of the result depends on row `p` of the two blocks and on the parameters only. This module states
  that, step by step, as equations with the row function of `RowMlp`.
-/
import proofs.«133564_j16415365006069_1_alg».proof.Proof.Gen.KernelIdeal.Skeleton
import proofs.«133564_j16415365006069_1_alg».proof.Proof.RowMlp
import proofs.«133564_j16415365006069_1_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockRows

open Cert.KernelIdeal Cert.KernelIdeal.Gen Idealize.ShloMosaic Idealize.ShloMosaic.ValueIdx Cert.RowMlp

/-! ## Single operations at an entry of a row -/

/-- Two blocks of 128 lanes joined along the lanes: entry `(p, k)` of the joined block is lane `k` of the first
    block's row `p` when `k < 128` and lane `k - 128` of the second block's row `p` otherwise. -/
theorem joined_entry (a b : S2000x128.Idx → EReal) (h : Shape.Concatenates [S2000x128, S2000x128] S2000x256 1)
    (p : Fin 2000) (k : Fin 256) :
    concatenate S2000x256 1 [⟨S2000x128, a⟩, ⟨S2000x128, b⟩] h (ix2 p k)
      = joined (fun l => a (ix2 p l)) (fun l => b (ix2 p l)) k := by
  unfold joined
  by_cases hk : k.val < 128
  · rw [dif_pos hk]
    exact concatenate_pair_apply_left (1 : Fin S2000x256.rank) a b h (ix2 p k) rfl (ix2 p ⟨k.val, hk⟩)
      (fun c => match c with | ⟨0, _⟩ => rfl | ⟨1, _⟩ => rfl)
  · rw [dif_neg hk]
    have hk' : k.val - 128 < 128 := by have := k.isLt; omega
    exact concatenate_pair_apply_right (1 : Fin S2000x256.rank) a b h (ix2 p k) rfl rfl (ix2 p ⟨k.val - 128, hk'⟩)
      (fun c hc => match c, hc with | ⟨0, _⟩, _ => rfl | ⟨1, _⟩, hc => absurd rfl hc)
      (by show k.val - 128 + 128 = k.val; omega)

/-- The sum of a block's lanes, row by row: entry `p` of the reduced vector is the sum of row `p`. -/
theorem laneSum_entry (v : FVec Ideal S2000x128 .f32) (h : S2000x128.Reduces [1] S2000) (hφ : FKind.Formats .f32)
    (hacc : (0x00000000#32 : BitVec 32) = FKind.add.neutral .f32 hφ) (p : Fin 2000) :
    multiReduction .add [1] S2000 v 0x00000000#32 h hφ hacc (ix1 p) = ∑ k : Fin 128, v (ix2 p k) := by
  refine (Ideal.multiReduction_add_single v 0x00000000#32 h hφ hacc (ix1 p)).trans ?_
  exact Finset.sum_congr rfl fun k _ => congrArg v (funext fun c => Fin.ext (by
    match c with | ⟨0, _⟩ => rfl | ⟨1, _⟩ => rfl))

/-! ## The two matrix products at an entry

A product into a zero accumulator is, at entry `(p, n)`, the sum over the 256 contracted positions of row `p` of the
left factor against column `n` of the right factor. The operand positions the contraction names are `(p, k)` and
`(k, n)`, axis by axis. -/

theorem lhsA_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsA_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhsA_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhsA_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The first product: the joined block against the first weight matrix. -/
theorem productA_entry (l : FVec Ideal S2000x256 .bf16) (r : FVec Ideal S256x256 .bf16) (p : Fin 2000) (n : Fin 256) :
    matmul dot_S2000x256_S256x256_S2000x256_1_0_0_1_n_n none l r (constant S2000x256 .f32 0x00000000#32) (ix2 p n)
      = ∑ k : Fin 256, l (ix2 p k) * r (ix2 k n) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p n) ((contrEquiv1 dot_S2000x256_S256x256_S2000x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S2000x256_S256x256_S2000x256_1_0_0_1_n_n.rhsIdx (ix2 p n) ((contrEquiv1 dot_S2000x256_S256x256_S2000x256_1_0_0_1_n_n 256 rfl rfl).symm k) = ix2 k n := funext fun a => Fin.ext (by
    match a with
    | ⟨0, _⟩ => exact (rhsA_0 _ _).trans hk
    | ⟨1, _⟩ => exact rhsA_1 _ _)
  rw [el, er]

theorem lhsB_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhsB_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhsB_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhsB_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The second product: the gated block against the second weight matrix. -/
theorem productB_entry (l : FVec Ideal S2000x256 .bf16) (r : FVec Ideal S256x128 .bf16) (p : Fin 2000) (n : Fin 128) :
    matmul dot_S2000x256_S256x128_S2000x128_1_0_0_1_n_n none l r (constant S2000x128 .f32 0x00000000#32) (ix2 p n)
      = ∑ k : Fin 256, l (ix2 p k) * r (ix2 k n) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p n) ((contrEquiv1 dot_S2000x256_S256x128_S2000x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S2000x256_S256x128_S2000x128_1_0_0_1_n_n.rhsIdx (ix2 p n) ((contrEquiv1 dot_S2000x256_S256x128_S2000x128_1_0_0_1_n_n 256 rfl rfl).symm k) = ix2 k n := funext fun a => Fin.ext (by
    match a with
    | ⟨0, _⟩ => exact (rhsB_0 _ _).trans hk
    | ⟨1, _⟩ => exact rhsB_1 _ _)
  rw [el, er]

/-! ## The body in stages

The long payload of the body is a composition of five steps, each named here on whole blocks; the payload is their
composition by unfolding. -/

/-- The first layer on a block: the joined block against the first weights, the bias row added to every row. -/
def firstLayer (x0 x1 : FVec Ideal S2000x128 .f32) (w1 : FVec Ideal S256x256 .f32) (b1 : FVec Ideal S1x256 .f32) :
    FVec Ideal S2000x256 .f32 :=
  addf (matmul dot_S2000x256_S256x256_S2000x256_1_0_0_1_n_n none
      (truncf .bf16 (concatenate S2000x256 1 [⟨S2000x128, x0⟩, ⟨S2000x128, shapeCast S2000x128 x1 shapeCasts_S2000x128_S2000x128⟩]
        concatenates_S2000x128_S2000x128_S2000x256_d1) bitsLt_bf16_f32)
      (truncf .bf16 w1 bitsLt_bf16_f32) (constant S2000x256 .f32 0x00000000#32))
    (broadcastTo S2000x256 (shapeCast S1x256 b1 shapeCasts_S1x256_S1x256) broadcasts_S1x256_S2000x256)

/-- The gate and the second layer on a block. -/
def secondLayer (h : FVec Ideal S2000x256 .f32) (w2 : FVec Ideal S256x128 .f32) (b2 : FVec Ideal S1x128 .f32) :
    FVec Ideal S2000x128 .f32 :=
  addf (matmul dot_S2000x256_S256x128_S2000x128_1_0_0_1_n_n none
      (truncf .bf16 (mulf h (logistic h)) bitsLt_bf16_f32) (truncf .bf16 w2 bitsLt_bf16_f32)
      (constant S2000x128 .f32 0x00000000#32))
    (broadcastTo S2000x128 (shapeCast S1x128 b2 shapeCasts_S1x128_S1x128) broadcasts_S1x128_S2000x128)

/-- The column of row means of a block: each row's lane sum over the number of lanes. -/
def rowMeans (h : FVec Ideal S2000x128 .f32) : FVec Ideal S2000x1 .f32 :=
  divf (shapeCast S2000x1 (multiReduction .add [1] S2000 h 0x00000000#32 reduces_S2000x128_S2000 (.inl rfl) rfl)
      shapeCasts_S2000_S2000x1)
    (broadcast S2000x1 (Scalar.ofBits .f32 0x43000000#32))

/-- A block with each row's mean subtracted from that row. -/
def centredBlock (h : FVec Ideal S2000x128 .f32) : FVec Ideal S2000x128 .f32 :=
  subf h (broadcastTo S2000x128 (rowMeans h) broadcasts_S2000x1_S2000x128)

/-- A block with each row multiplied by the inverse root of that row's mean square plus the small constant. -/
def scaledBlock (d : FVec Ideal S2000x128 .f32) : FVec Ideal S2000x128 .f32 :=
  mulf d (broadcastTo S2000x128
    (rsqrt (addf (rowMeans (mulf d d)) (broadcast S2000x1 (Scalar.ofBits .f32 0x3727C5AC#32))))
    broadcasts_S2000x1_S2000x128)

/-- The body's long payload is the five steps composed. -/
theorem payload_stages (x0 x1 : FVec Ideal S2000x128 .f32) (w1 : FVec Ideal S256x256 .f32) (b1 : FVec Ideal S1x256 .f32)
    (w2 : FVec Ideal S256x128 .f32) (b2 : FVec Ideal S1x128 .f32) :
    k0_pay2 (F := Ideal) x0 x1 w1 b1 w2 b2
      = scaledBlock (centredBlock (secondLayer (firstLayer x0 x1 w1 b1) w2 b2)) := rfl

/-! ## Each stage at an entry -/

theorem firstLayer_entry (x0 x1 : FVec Ideal S2000x128 .f32) (w1 : FVec Ideal S256x256 .f32) (b1 : FVec Ideal S1x256 .f32)
    (p : Fin 2000) (n : Fin 256) :
    firstLayer x0 x1 w1 b1 (ix2 p n)
      = RowMlp.hidden (joined (fun l => x0 (ix2 p l)) (fun l => x1 (ix2 p l))) (fun k m => w1 (ix2 k m))
          (fun m => b1 (ix2 (0 : Fin 1) m)) n := by
  unfold firstLayer RowMlp.hidden
  rw [addf_apply, productA_entry, broadcastTo_1b_ab_apply, shapeCast_self, shapeCast_self]
  refine congrArg (· + _) (Finset.sum_congr rfl fun k _ => ?_)
  rw [truncf_apply, truncf_apply, joined_entry]

theorem secondLayer_entry (h : FVec Ideal S2000x256 .f32) (w2 : FVec Ideal S256x128 .f32) (b2 : FVec Ideal S1x128 .f32)
    (p : Fin 2000) (j : Fin 128) :
    secondLayer h w2 b2 (ix2 p j)
      = proj (fun n => gate (h (ix2 p n))) (fun n l => w2 (ix2 n l)) (fun l => b2 (ix2 (0 : Fin 1) l)) j := by
  unfold secondLayer proj
  rw [addf_apply, productB_entry, broadcastTo_1b_ab_apply, shapeCast_self]
  refine congrArg (· + _) (Finset.sum_congr rfl fun n _ => ?_)
  rw [truncf_apply, truncf_apply]
  rfl

theorem rowMeans_entry (h : FVec Ideal S2000x128 .f32) (p : Fin 2000) :
    rowMeans h (ix2 p (0 : Fin 1)) = mean (fun l => h (ix2 p l)) := by
  unfold rowMeans mean
  rw [divf_apply, shapeCast_a_a1_apply]
  exact congrArg (fun z => Ideal.div z lanes) (laneSum_entry h _ _ _ p)

theorem centredBlock_entry (h : FVec Ideal S2000x128 .f32) (p : Fin 2000) (j : Fin 128) :
    centredBlock h (ix2 p j) = centred (fun l => h (ix2 p l)) j := by
  unfold centredBlock centred
  rw [subf_apply, broadcastTo_a1_ab_apply, rowMeans_entry]

theorem scaledBlock_entry (d : FVec Ideal S2000x128 .f32) (p : Fin 2000) (j : Fin 128) :
    scaledBlock d (ix2 p j)
      = d (ix2 p j) * Ideal.rsqrt (mean (fun l => d (ix2 p l) * d (ix2 p l)) + stab) := by
  unfold scaledBlock
  rw [mulf_apply, broadcastTo_a1_ab_apply]
  show d (ix2 p j) * Ideal.rsqrt (rowMeans (mulf d d) (ix2 p (0 : Fin 1)) + stab) = _
  rw [rowMeans_entry]
  rfl

/-! ## The payload at an entry -/

/-- Entry `(p, j)` of the body's long payload is lane `j` of the normalised row computed from row `p` of the two
    input blocks. -/
theorem payload_entry (x0 x1 : FVec Ideal S2000x128 .f32) (w1 : FVec Ideal S256x256 .f32) (b1 : FVec Ideal S1x256 .f32)
    (w2 : FVec Ideal S256x128 .f32) (b2 : FVec Ideal S1x128 .f32) (p : Fin 2000) (j : Fin 128) :
    k0_pay2 (F := Ideal) x0 x1 w1 b1 w2 b2 (ix2 p j)
      = scaled (layers (fun l => x0 (ix2 p l)) (fun l => x1 (ix2 p l)) (fun k m => w1 (ix2 k m))
          (fun m => b1 (ix2 (0 : Fin 1) m)) (fun n l => w2 (ix2 n l)) (fun l => b2 (ix2 (0 : Fin 1) l))) j := by
  have hl : ∀ l : Fin 128, secondLayer (firstLayer x0 x1 w1 b1) w2 b2 (ix2 p l)
      = layers (fun l => x0 (ix2 p l)) (fun l => x1 (ix2 p l)) (fun k m => w1 (ix2 k m))
          (fun m => b1 (ix2 (0 : Fin 1) m)) (fun n l => w2 (ix2 n l)) (fun l => b2 (ix2 (0 : Fin 1) l)) l := fun l => by
    rw [secondLayer_entry]
    unfold layers
    simp only [firstLayer_entry]
  have hc : ∀ l : Fin 128, centredBlock (secondLayer (firstLayer x0 x1 w1 b1) w2 b2) (ix2 p l)
      = centred (layers (fun l => x0 (ix2 p l)) (fun l => x1 (ix2 p l)) (fun k m => w1 (ix2 k m))
          (fun m => b1 (ix2 (0 : Fin 1) m)) (fun n l => w2 (ix2 n l)) (fun l => b2 (ix2 (0 : Fin 1) l))) l := fun l => by
    rw [centredBlock_entry]
    simp only [hl]
  rw [payload_stages, scaledBlock_entry]
  unfold scaled spread mean
  simp only [hc]

end Cert.KernelIdeal.BlockRows

end
-- ==== Proof.KernelRows.lean ====
/-
  From the kernel's blocks to its whole result array.

  The kernel walks 25 grid points; at point `t` it reads rows `2000 t … 2000 t + 1999` of the node features and of
  the aggregate, the whole of every parameter, and writes the same rows of the result. Since the body acts on a row at
  a time (`BlockRows`), what point `t` writes is the restriction to those rows of ONE function of the arrays: row
  `r` of the result is the row function of row `r` of the node features and row `r` of the aggregate. The 25 row
  ranges tile the 50000 rows, so the result array is that function everywhere.
-/
import proofs.«133564_j16415365006069_1_alg».proof.Proof.Gen.KernelIdeal.Value
import proofs.«133564_j16415365006069_1_alg».proof.Proof.BlockRows
import Idealize.ShloMosaic.Lib.Pipeline.Value
import Idealize.ShloMosaic.Lib.StableHlo.Run
import Idealize.ShloMosaic.Lib.ValueLayout

set_option maxRecDepth 16384

noncomputable section

namespace Cert.KernelIdeal.Rows

open Cert.KernelIdeal Cert.KernelIdeal.Gen Cert.KernelIdeal.Value Cert.KernelIdeal.BlockRows
open Idealize.ShloMosaic Idealize.ShloMosaic.TcCoe Idealize.SL.Sem Idealize.ShloMosaic.ValueIdx Cert.RowMlp
open Idealize.ShloMosaic.Pipeline (Dat)

variable (m : (ℓ : Loc nD τ sig) → Buf (Elt Ideal) ℓ) (ρ : Dev nD → PrngReg)

/-- Every load and store of the body starts at the origin of its buffer. -/
theorem zeroOffsets : (![0, 0] : Fin 2 → Nat) = fun _ => 0 := funext fun a => by fin_cases a <;> rfl

/-! ## What the body leaves in the output block, at an entry -/

/-- Entry `(p, j)` of the block the body stores: lane `j` of the row function at row `p` of the two input blocks,
    the parameters read off their one-row or whole blocks. -/
theorem blockOut_entry (x0 x1 : Vec Ideal S2000x128 .f32) (w1 : Vec Ideal S256x256 .f32) (b1 : Vec Ideal S1x256 .f32)
    (w2 : Vec Ideal S256x128 .f32) (b2 g bt : Vec Ideal S1x128 .f32) (p : Fin 2000) (j : Fin 128) :
    out0_8 x0 x1 w1 b1 w2 b2 g bt (ix2 p j)
      = rowOut (fun l => x0 (ix2 p l)) (fun l => x1 (ix2 p l)) (fun k n => w1 (ix2 k n))
          (fun n => b1 (ix2 (0 : Fin 1) n)) (fun n l => w2 (ix2 n l)) (fun l => b2 (ix2 (0 : Fin 1) l))
          (fun l => g (ix2 (0 : Fin 1) l)) (fun l => bt (ix2 (0 : Fin 1) l)) j := by
  unfold out0_8
  rw [canon8_eq]
  simp only [View.ld_unit_zero (S := S2000x128) zeroOffsets, View.ld_unit_zero (S := S256x256) zeroOffsets,
    View.ld_unit_zero (S := S1x256) zeroOffsets, View.ld_unit_zero (S := S256x128) zeroOffsets,
    View.ld_unit_zero (S := S1x128) zeroOffsets]
  show x0 (ix8_0 (ix2 p j)) + (k0_pay2 (F := Ideal) x0 x1 w1 b1 w2 b2 (ix8_1 (ix2 p j)) * g (ix8_2 (ix2 p j))
    + bt (ix8_3 (ix2 p j))) = _
  have e0 : ix8_0 (ix2 p j) = ix2 p j := funext fun a => Fin.ext (by match a with | ⟨0, _⟩ => rfl | ⟨1, _⟩ => rfl)
  have e1 : ix8_1 (ix2 p j) = ix2 p j := funext fun a => Fin.ext (by match a with | ⟨0, _⟩ => rfl | ⟨1, _⟩ => rfl)
  have e2 : ix8_2 (ix2 p j) = ix2 (0 : Fin 1) j := funext fun a => Fin.ext (by match a with | ⟨0, _⟩ => rfl | ⟨1, _⟩ => rfl)
  have e3 : ix8_3 (ix2 p j) = ix2 (0 : Fin 1) j := funext fun a => Fin.ext (by match a with | ⟨0, _⟩ => rfl | ⟨1, _⟩ => rfl)
  rw [e0, e1, e2, e3, payload_entry]
  rfl

/-! ## The arrays as the region finds them

Before the region the host forms the aggregate (a scatter-sum of the edge rows onto node rows) and re-lays each
one-dimensional parameter as one row. -/

/-- The aggregate as a function of the edge index array and the edge features: the host's scatter-sum into zeros. It is
    never opened: both programs form it by the same operations. -/
def aggregate (x1 : (⟨S2x1600000, .i32⟩ : BufTy).Contents (Elt Ideal))
    (x2 : (⟨S1600000x128, .f32⟩ : BufTy).Contents (Elt Ideal)) : (⟨S50000x128, .f32⟩ : BufTy).Contents (Elt Ideal) :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0
      (shapeCast _ (extractStridedSlice S1x1600000 ![1, 0] x1 slices_S2x1600000_S1x1600000_1_0) shapeCasts_S1x1600000_S1600000))
    x2

theorem found_aggregate (c : Dev nD) :
    (V m c main_v4 : S50000x128.Idx → EReal)
      = aggregate (m ((c : Thread nD τ).loc main_arg1)) (m ((c : Thread nD τ).loc main_arg2)) := by
  dsimp only [V, hostOps0]; after_results; rfl

-- From here on the aggregate is an opaque array: nothing below depends on how the sum over the edges is formed, only
-- on its rows.
attribute [irreducible] aggregate

/-- The block of aggregated rows the body reads at point `t` is the aggregate read through the point's rectangle. -/
theorem aggregate_block (c : Dev nD) (t : Fin cfg0.N) :
    iblk m c 1 t = ((cfg0.win 1).blk t).view.read (Elt Ideal)
      (aggregate (m ((c : Thread nD τ).loc main_arg1)) (m ((c : Thread nD τ).loc main_arg2))) := by
  unfold iblk
  show ((cfg0.win 1).blk t).view.read (Elt Ideal) (V m c main_v4) = _
  rw [found_aggregate]

theorem found_bias1 (c : Dev nD) :
    (V m c main_v5 : S1x256.Idx → EReal) = shapeCast _ (m ((c : Thread nD τ).loc main_arg4)) shapeCasts_S256_S1x256 := by
  dsimp only [V, hostOps0]; after_results; rfl

theorem found_bias2 (c : Dev nD) :
    (V m c main_v6 : S1x128.Idx → EReal) = shapeCast _ (m ((c : Thread nD τ).loc main_arg6)) shapeCasts_S128_S1x128 := by
  dsimp only [V, hostOps0]; after_results; rfl

theorem found_scale (c : Dev nD) :
    (V m c main_v7 : S1x128.Idx → EReal) = shapeCast _ (m ((c : Thread nD τ).loc main_arg7)) shapeCasts_S128_S1x128 := by
  dsimp only [V, hostOps0]; after_results; rfl

theorem found_shift (c : Dev nD) :
    (V m c main_v8 : S1x128.Idx → EReal) = shapeCast _ (m ((c : Thread nD τ).loc main_arg8)) shapeCasts_S128_S1x128 := by
  dsimp only [V, hostOps0]; after_results; rfl

/-! ## The whole result as one function of the arrays -/

/-- The result array as the region's arrays determine it: at index `(r, j)`, lane `j` of the row function at row
    `r` of the node features and row `r` of the aggregate. -/
def wholeOut (c : Dev nD) : S50000x128.Idx → EReal := fun i =>
  rowOut (fun l => (V m c main_arg0 : S50000x128.Idx → EReal) (ix2 (⟨(i 0).val, (i 0).isLt⟩ : Fin 50000) l))
    (fun l => aggregate (m ((c : Thread nD τ).loc main_arg1)) (m ((c : Thread nD τ).loc main_arg2))
      (ix2 (⟨(i 0).val, (i 0).isLt⟩ : Fin 50000) l))
    (fun k n => (V m c main_arg3 : S256x256.Idx → EReal) (ix2 k n))
    (fun n => (V m c main_v5 : S1x256.Idx → EReal) (ix2 (0 : Fin 1) n))
    (fun n l => (V m c main_arg5 : S256x128.Idx → EReal) (ix2 n l))
    (fun l => (V m c main_v6 : S1x128.Idx → EReal) (ix2 (0 : Fin 1) l))
    (fun l => (V m c main_v7 : S1x128.Idx → EReal) (ix2 (0 : Fin 1) l))
    (fun l => (V m c main_v8 : S1x128.Idx → EReal) (ix2 (0 : Fin 1) l))
    (⟨(i 1).val, (i 1).isLt⟩ : Fin 128)

/-- The row function at equal arguments. -/
theorem rowOut_congr {xr xr' ar ar' : Fin 128 → EReal} {w1 w1' : Fin 256 → Fin 256 → EReal} {b1 b1' : Fin 256 → EReal}
    {w2 w2' : Fin 256 → Fin 128 → EReal} {b2 b2' gm gm' bt bt' : Fin 128 → EReal} {j j' : Fin 128}
    (h0 : xr = xr') (h1 : ar = ar') (h2 : w1 = w1') (h3 : b1 = b1') (h4 : w2 = w2') (h5 : b2 = b2') (h6 : gm = gm')
    (h7 : bt = bt') (h8 : j = j') :
    rowOut xr ar w1 b1 w2 b2 gm bt j = rowOut xr' ar' w1' b1' w2' b2' gm' bt' j' := by
  subst h0 h1 h2 h3 h4 h5 h6 h7 h8; rfl

/-- The index maps over the grid: the two row-blocked inputs move with the output along the rows and stay at lane
    block 0; every parameter stays at block (0, 0); the output's row block at point `t` is `t`. -/
theorem index_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- WHAT POINT `t` WRITES BACK is the restriction of `wholeOut` to the point's rows. -/
theorem flushed_eq (c : Dev nD) (t : Fin cfg0.N) :
    (dats m 0 c).flushed 8 t = ((cfg0.win 8).blk t).view.read (Elt Ideal) (wholeOut m c) := by
  rw [flushed8, aggregate_block]
  obtain ⟨a0, a1, b0, b1, c0, c1, d0, d1, e0, e1, f0, f1, g0, g1, h0, h1, o0, o1⟩ := index_facts t
  funext y
  obtain ⟨p, j, rfl⟩ : ∃ (p : Fin 2000) (j : Fin 128), y = (ix2 p j : S2000x128.Idx) :=
    ⟨y 0, y 1, eq_ix2 (n0 := 2000) (n1 := 128) y⟩
  show out0_8 (iblk m c 0 t) (((cfg0.win 1).blk t).view.read (Elt Ideal)
        (aggregate (m ((c : Thread nD τ).loc main_arg1)) (m ((c : Thread nD τ).loc main_arg2)))) (iblk m c 2 t) (iblk m c 3 t) (iblk m c 4 t) (iblk m c 5 t)
      (iblk m c 6 t) (iblk m c 7 t) (ix2 p j) = wholeOut m c (((cfg0.win 8).blk t).view.emb (ix2 p j))
  refine (blockOut_entry (iblk m c 0 t) (((cfg0.win 1).blk t).view.read (Elt Ideal)
      (aggregate (m ((c : Thread nD τ).loc main_arg1)) (m ((c : Thread nD τ).loc main_arg2)))) (iblk m c 2 t) (iblk m c 3 t) (iblk m c 4 t) (iblk m c 5 t)
      (iblk m c 6 t) (iblk m c 7 t) p j).trans ?_
  unfold wholeOut
  refine rowOut_congr (funext fun l => ?_) (funext fun l => ?_) (funext fun k => funext fun n => ?_) (funext fun n => ?_)
    (funext fun n => funext fun l => ?_) (funext fun l => ?_) (funext fun l => ?_) (funext fun l => ?_) (Fin.ext ?_)
  · -- the node rows: row block `t`, lane block 0
    show V m c main_arg0 (((cfg0.win 0).blk t).view.emb (ix2 p l)) = _
    exact congrArg (V m c main_arg0 : S50000x128.Idx → EReal) (funext fun a => Fin.ext (by
      match a with
      | ⟨0, _⟩ => show win0_0.index t (0 : Fin 2) * 2000 + 1 * p.val = win0_8.index t (0 : Fin 2) * 2000 + 1 * p.val; rw [a0]
      | ⟨1, _⟩ => show win0_0.index t (1 : Fin 2) * 128 + 1 * l.val = l.val; rw [a1]; omega))
  · -- the aggregated rows: the same rows
    rw [View.read_apply, cast_eq]
    exact congrArg (aggregate (m ((c : Thread nD τ).loc main_arg1)) (m ((c : Thread nD τ).loc main_arg2))) (funext fun a => Fin.ext (by
      match a with
      | ⟨0, _⟩ => show win0_1.index t (0 : Fin 2) * 2000 + 1 * p.val = win0_8.index t (0 : Fin 2) * 2000 + 1 * p.val; rw [b0]
      | ⟨1, _⟩ => show win0_1.index t (1 : Fin 2) * 128 + 1 * l.val = l.val; rw [b1]; omega))
  · -- the first weights, whole
    show V m c main_arg3 (((cfg0.win 2).blk t).view.emb (ix2 k n)) = _
    exact congrArg (V m c main_arg3 : S256x256.Idx → EReal) (funext fun a => Fin.ext (by
      match a with
      | ⟨0, _⟩ => show win0_2.index t (0 : Fin 2) * 256 + 1 * k.val = k.val; rw [c0]; omega
      | ⟨1, _⟩ => show win0_2.index t (1 : Fin 2) * 256 + 1 * n.val = n.val; rw [c1]; omega))
  · -- the first bias row
    show V m c main_v5 (((cfg0.win 3).blk t).view.emb (ix2 (0 : Fin 1) n)) = _
    exact congrArg (V m c main_v5 : S1x256.Idx → EReal) (funext fun a => Fin.ext (by
      match a with
      | ⟨0, _⟩ => show win0_3.index t (0 : Fin 2) * 1 + 1 * 0 = 0; rw [d0]
      | ⟨1, _⟩ => show win0_3.index t (1 : Fin 2) * 256 + 1 * n.val = n.val; rw [d1]; omega))
  · -- the second weights, whole
    show V m c main_arg5 (((cfg0.win 4).blk t).view.emb (ix2 n l)) = _
    exact congrArg (V m c main_arg5 : S256x128.Idx → EReal) (funext fun a => Fin.ext (by
      match a with
      | ⟨0, _⟩ => show win0_4.index t (0 : Fin 2) * 256 + 1 * n.val = n.val; rw [e0]; omega
      | ⟨1, _⟩ => show win0_4.index t (1 : Fin 2) * 128 + 1 * l.val = l.val; rw [e1]; omega))
  · -- the second bias row
    show V m c main_v6 (((cfg0.win 5).blk t).view.emb (ix2 (0 : Fin 1) l)) = _
    exact congrArg (V m c main_v6 : S1x128.Idx → EReal) (funext fun a => Fin.ext (by
      match a with
      | ⟨0, _⟩ => show win0_5.index t (0 : Fin 2) * 1 + 1 * 0 = 0; rw [f0]
      | ⟨1, _⟩ => show win0_5.index t (1 : Fin 2) * 128 + 1 * l.val = l.val; rw [f1]; omega))
  · -- the scale row
    show V m c main_v7 (((cfg0.win 6).blk t).view.emb (ix2 (0 : Fin 1) l)) = _
    exact congrArg (V m c main_v7 : S1x128.Idx → EReal) (funext fun a => Fin.ext (by
      match a with
      | ⟨0, _⟩ => show win0_6.index t (0 : Fin 2) * 1 + 1 * 0 = 0; rw [g0]
      | ⟨1, _⟩ => show win0_6.index t (1 : Fin 2) * 128 + 1 * l.val = l.val; rw [g1]; omega))
  · -- the shift row
    show V m c main_v8 (((cfg0.win 7).blk t).view.emb (ix2 (0 : Fin 1) l)) = _
    exact congrArg (V m c main_v8 : S1x128.Idx → EReal) (funext fun a => Fin.ext (by
      match a with
      | ⟨0, _⟩ => show win0_7.index t (0 : Fin 2) * 1 + 1 * 0 = 0; rw [h0]
      | ⟨1, _⟩ => show win0_7.index t (1 : Fin 2) * 128 + 1 * l.val = l.val; rw [h1]; omega))
  · -- the lane
    show j.val = win0_8.index t (1 : Fin 2) * 128 + 1 * j.val
    rw [o1]; omega

/-! ## The 25 row ranges tile the array -/

/-- An index of the result lies in point `t`'s block exactly when each coordinate lies in the block's range. -/
theorem mem_rows (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v9).slice (win0_8.rect t)).set ↔ _
  rw [View.set_slice_whole, Rect.mem_set_unit]
  exact Iff.rfl

/-- Row `r` is written by point `r / 2000`. -/
theorem rows_cover (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : grid0.N = 25 := N_0
  have hq : (i 0).val / 2000 < cfg0.N := by show (i 0).val / 2000 < grid0.N; rw [hN]; omega
  obtain ⟨-, -, -, -, -, -, -, -, -, -, -, -, -, -, -, -, o0, o1⟩ := index_facts ⟨(i 0).val / 2000, hq⟩
  refine ⟨⟨(i 0).val / 2000, hq⟩, flush0_8 _, ?_⟩
  rw [mem_rows]
  intro a
  match a with
  | ⟨0, _⟩ =>
    show win0_8.index ⟨(i 0).val / 2000, hq⟩ (0 : Fin 2) * 2000 ≤ (i 0).val
      ∧ (i 0).val < win0_8.index ⟨(i 0).val / 2000, hq⟩ (0 : Fin 2) * 2000 + 2000
    rw [o0]
    show (i 0).val / 2000 * 2000 ≤ (i 0).val ∧ (i 0).val < (i 0).val / 2000 * 2000 + 2000
    omega
  | ⟨1, _⟩ =>
    show win0_8.index ⟨(i 0).val / 2000, hq⟩ (1 : Fin 2) * 128 ≤ (i 1).val
      ∧ (i 1).val < win0_8.index ⟨(i 0).val / 2000, hq⟩ (1 : Fin 2) * 128 + 128
    rw [o1]
    omega

/-- THE RESULT ARRAY after the run is `wholeOut`. -/
theorem result_array (c : Dev nD) : (dats m 0 c).arrAt 8 cfg0.N = wholeOut m c :=
  (dats m 0 c).arrAt_eq_of_cover 8 (wholeOut m c) (fun t _ => flushed_eq m c t) rows_cover

/-! ## The run -/

/-- Every weakly fair execution of the idealized kernel ends with the result array at `wholeOut` and the arguments
    unchanged. -/
theorem run : θ_run defs (onTc (τ := τ) (main (F := Ideal))) ⟨m, fun _ => 0, ρ⟩ fun r => ∀ c : Dev nD,
      r.2.mem ((c : Thread nD τ).loc main_v9) = wholeOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (result_array m c), (h c).2⟩) (run_blocks m ρ)

/-! ## The result in terms of the launch contents -/

/-- Entry `(r, j)` of `wholeOut`, with every array the region finds traced back to the arguments: the node features,
    both weight matrices and (through the host's re-laying as one row) the four one-dimensional parameters are the
    arguments themselves; the aggregate is the host's scatter-sum of the arguments. -/
theorem wholeOut_entry (c : Dev nD) (r : Fin 50000) (j : Fin 128) :
    wholeOut m c (ix2 r j)
      = rowOut (fun l => (m ((c : Thread nD τ).loc main_arg0) : S50000x128.Idx → EReal) (ix2 r l))
          (fun l => aggregate (m ((c : Thread nD τ).loc main_arg1)) (m ((c : Thread nD τ).loc main_arg2)) (ix2 r l))
          (fun k n => (m ((c : Thread nD τ).loc main_arg3) : S256x256.Idx → EReal) (ix2 k n))
          (fun n => (m ((c : Thread nD τ).loc main_arg4) : S256.Idx → EReal) (ix1 n))
          (fun n l => (m ((c : Thread nD τ).loc main_arg5) : S256x128.Idx → EReal) (ix2 n l))
          (fun l => (m ((c : Thread nD τ).loc main_arg6) : S128.Idx → EReal) (ix1 l))
          (fun l => (m ((c : Thread nD τ).loc main_arg7) : S128.Idx → EReal) (ix1 l))
          (fun l => (m ((c : Thread nD τ).loc main_arg8) : S128.Idx → EReal) (ix1 l)) j := by
  unfold wholeOut
  refine rowOut_congr (funext fun l => ?_) (funext fun l => ?_) (funext fun k => funext fun n => ?_) (funext fun n => ?_)
    (funext fun n => funext fun l => ?_) (funext fun l => ?_) (funext fun l => ?_) (funext fun l => ?_) rfl
  · rw [V_main_arg0]
  · rfl
  · rw [V_main_arg3]
  · rw [found_bias1]; exact shapeCast_a_1a_apply _ _ (0 : Fin 1) n
  · rw [V_main_arg5]
  · rw [found_bias2]; exact shapeCast_a_1a_apply _ _ (0 : Fin 1) l
  · rw [found_scale]; exact shapeCast_a_1a_apply _ _ (0 : Fin 1) l
  · rw [found_shift]; exact shapeCast_a_1a_apply _ _ (0 : Fin 1) l

end Cert.KernelIdeal.Rows

end
-- ==== Proof.RefRows.lean ====
/-
  The reference program's result, read one row at a time.

  The reference computes, for every node, the same chain: join the node's row with its row of aggregated edge
  features, apply an affine layer, the gate `z · 1/(1 + e^(-z))`, a second affine layer, normalise the row (subtract
  the mean, divide by the root of the mean square deviation plus a small constant), scale and shift per lane, and add
  the node's row back. Each operation of the program writes a whole array; read at row `r`, every one of them depends
  only on row `r` of its operands, so element `(r, j)` of the result is `Cert.RowMlp.rowOut` of row `r` of the node
  features and row `r` of the aggregate. The aggregate itself (a sum of edge rows into node rows) stays an opaque
  array here: only its row `r` is read.

  The lemmas follow the program in order, one per stage, each at an index written from its coordinates.
-/
import proofs.«133564_j16415365006069_1_alg».proof.Proof.Gen.ReferenceIdeal.Read
import proofs.«133564_j16415365006069_1_alg».proof.Proof.RowMlp
import Idealize.ShloMosaic.Lib.ValueIdx
import Idealize.ShloMosaic.Lib.IdealHost
import Idealize.ShloMosaic.Lib.Pipeline.Value
import Idealize.ShloMosaic.PureOps.Ideal
import Idealize.ShloMosaic.PureOps.Ideal.Laws

noncomputable section

namespace Cert.ReferenceIdeal.RefRows

open Cert.ReferenceIdeal Cert.ReferenceIdeal.Read Idealize.ShloMosaic Idealize.ShloMosaic.ValueIdx

/-! ## The joined row -/

/-- Row `r` of the joined array: the node's row on lanes below 128, the aggregate's row on the lanes from 128 on. -/
theorem joined_row
    (x0 : (⟨S50000x128, .f32⟩ : BufTy).Contents (Elt Ideal)) (x1 : (⟨S2x1600000, .i32⟩ : BufTy).Contents (Elt Ideal))
    (x2 : (⟨S1600000x128, .f32⟩ : BufTy).Contents (Elt Ideal)) (r : Fin 50000) (k : Fin 256) :
    val_main_v5 (F := Ideal) x0 x1 x2 (ix2 r k)
      = Cert.RowMlp.joined (fun k => x0 (ix2 r k)) (fun k => val_main_v4 (F := Ideal) x1 x2 (ix2 r k)) k := by
  unfold val_main_v5 Cert.RowMlp.joined
  by_cases h : k.val < 128
  · rw [dif_pos h]
    exact concatenate_pair_apply_left (1 : Fin 2) x0 (val_main_v4 (F := Ideal) x1 x2)
      _ (ix2 r k) rfl (ix2 r ⟨k.val, h⟩)
      (fun b => by match b with | ⟨0, _⟩ => rfl | ⟨1, _⟩ => rfl)
  · rw [dif_neg h]
    exact concatenate_pair_apply_right (1 : Fin 2) x0 (val_main_v4 (F := Ideal) x1 x2)
      _ (ix2 r k) rfl rfl
      (ix2 r ⟨k.val - 128, by have := k.isLt; omega⟩)
      (fun b hb => by
        match b with
        | ⟨0, _⟩ => rfl
        | ⟨1, _⟩ => exact absurd rfl hb)
      (by show k.val - 128 + 128 = k.val; omega)

/-! ## The first affine layer -/

/-- The contraction's left index at row `r`, position `k`. -/
theorem lidx6_eq (r : Fin 50000) (n k : Fin 256) : lidx_main_v6 (ix2 r n) k = ix2 r k :=
  funext fun a => Fin.ext (by match a with | ⟨0, _⟩ => rfl | ⟨1, _⟩ => rfl)

/-- The contraction's right index at column `n`, position `k`. -/
theorem ridx6_eq (r : Fin 50000) (n k : Fin 256) : ridx_main_v6 (ix2 r n) k = ix2 k n :=
  funext fun a => Fin.ext (by match a with | ⟨0, _⟩ => rfl | ⟨1, _⟩ => rfl)

/-- The bias, broadcast over the rows, is read at the column. -/
theorem bias1_idx_eq (r : Fin 50000) (n : Fin 256) : idx_main_v7 (idx_main_v8 (ix2 r n)) = ix1 n :=
  funext fun a => Fin.ext (by match a with | ⟨0, _⟩ => rfl)

/-- Row `r` of the first affine layer: the joined row against column `n` of the weights, plus the bias. -/
theorem hidden_row
    (x0 : (⟨S50000x128, .f32⟩ : BufTy).Contents (Elt Ideal)) (x1 : (⟨S2x1600000, .i32⟩ : BufTy).Contents (Elt Ideal))
    (x2 : (⟨S1600000x128, .f32⟩ : BufTy).Contents (Elt Ideal)) (x3 : (⟨S256x256, .f32⟩ : BufTy).Contents (Elt Ideal))
    (x4 : (⟨S256, .f32⟩ : BufTy).Contents (Elt Ideal)) (r : Fin 50000) (n : Fin 256) :
    val_main_v9 (F := Ideal) x0 x1 x2 x3 x4 (ix2 r n)
      = Cert.RowMlp.hidden
          (Cert.RowMlp.joined (fun k => x0 (ix2 r k)) (fun k => val_main_v4 (F := Ideal) x1 x2 (ix2 r k)))
          (fun k n => x3 (ix2 k n)) (fun n => x4 (ix1 n)) n := by
  rw [val_main_v9_apply, val_main_v6_apply, val_main_v8_apply, val_main_v7_apply, bias1_idx_eq]
  unfold Cert.RowMlp.hidden
  refine congrArg (· + x4 (ix1 n)) (Finset.sum_congr rfl fun k _ => ?_)
  rw [lidx6_eq, ridx6_eq, joined_row]

/-! ## The gate -/

/-- The six operations of the gate's call (negate, exponential, add to one, divide one by it, multiply) are
    `z · 1/(1 + e^(-z))` of the element `z` of the first layer. -/
theorem gate_at
    (x0 : (⟨S50000x128, .f32⟩ : BufTy).Contents (Elt Ideal)) (x1 : (⟨S2x1600000, .i32⟩ : BufTy).Contents (Elt Ideal))
    (x2 : (⟨S1600000x128, .f32⟩ : BufTy).Contents (Elt Ideal)) (x3 : (⟨S256x256, .f32⟩ : BufTy).Contents (Elt Ideal))
    (x4 : (⟨S256, .f32⟩ : BufTy).Contents (Elt Ideal)) (r : Fin 50000) (n : Fin 256) :
    val_main_v10 (F := Ideal) x0 x1 x2 x3 x4 (ix2 r n)
      = Cert.RowMlp.gate (val_main_v9 (F := Ideal) x0 x1 x2 x3 x4 (ix2 r n)) := by
  rw [val_main_v10_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.addf_def, Ideal.hostDivf_def, Ideal.hostUnary_exp_def, Ideal.hostNegf_def,
    Ideal.negf_def, Ideal.ofBits_def]
  rw [Ideal.ofBits_one_f32]
  rfl

/-! ## The second affine layer -/

/-- Row `r` of the array after the two layers, as a function of the lane. -/
def layersRow
    (x0 : (⟨S50000x128, .f32⟩ : BufTy).Contents (Elt Ideal)) (x1 : (⟨S2x1600000, .i32⟩ : BufTy).Contents (Elt Ideal))
    (x2 : (⟨S1600000x128, .f32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal))
    (r : Fin 50000) : Fin 128 → EReal :=
  Cert.RowMlp.layers (fun k => x0 (ix2 r k)) (fun k => val_main_v4 (F := Ideal) x1 x2 (ix2 r k))
    (fun k n => x3 (ix2 k n)) (fun n => x4 (ix1 n)) (fun n l => x5 (ix2 n l)) (fun l => x6 (ix1 l))

/-- The second contraction's left index at row `r`, position `k`. -/
theorem lidx11_eq (r : Fin 50000) (l : Fin 128) (k : Fin 256) : lidx_main_v11 (ix2 r l) k = ix2 r k :=
  funext fun a => Fin.ext (by match a with | ⟨0, _⟩ => rfl | ⟨1, _⟩ => rfl)

/-- The second contraction's right index at lane `l`, position `k`. -/
theorem ridx11_eq (r : Fin 50000) (l : Fin 128) (k : Fin 256) : ridx_main_v11 (ix2 r l) k = ix2 k l :=
  funext fun a => Fin.ext (by match a with | ⟨0, _⟩ => rfl | ⟨1, _⟩ => rfl)

/-- The second bias, broadcast over the rows, is read at the lane. -/
theorem bias2_idx_eq (r : Fin 50000) (l : Fin 128) : idx_main_v12 (idx_main_v13 (ix2 r l)) = ix1 l :=
  funext fun a => Fin.ext (by match a with | ⟨0, _⟩ => rfl)

/-- Row `r` of the second affine layer: the gated first layer against column `l` of the weights, plus the bias. -/
theorem layers_row
    (x0 : (⟨S50000x128, .f32⟩ : BufTy).Contents (Elt Ideal)) (x1 : (⟨S2x1600000, .i32⟩ : BufTy).Contents (Elt Ideal))
    (x2 : (⟨S1600000x128, .f32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal))
    (r : Fin 50000) (l : Fin 128) :
    val_main_v14 (F := Ideal) x0 x1 x2 x3 x4 x5 x6 (ix2 r l) = layersRow x0 x1 x2 x3 x4 x5 x6 r l := by
  rw [val_main_v14_apply, val_main_v11_apply, val_main_v13_apply, val_main_v12_apply, bias2_idx_eq]
  unfold layersRow Cert.RowMlp.layers Cert.RowMlp.proj
  refine congrArg (· + x6 (ix1 l)) (Finset.sum_congr rfl fun k _ => ?_)
  rw [lidx11_eq, ridx11_eq, gate_at, hidden_row]

/-! ## The row's mean -/

/-- The row sum's index at row `r`, position `k`. -/
theorem idx15_eq (r : Fin 50000) (k : Fin 128) : idx_main_v15 (idx_main_v16 (ix2 r (0 : Fin 1))) k = ix2 r k :=
  funext fun a => Fin.ext (by match a with | ⟨0, _⟩ => rfl | ⟨1, _⟩ => rfl)

/-- The mean of row `r`: the sum of its 128 lanes (the sum starts from zero) over the number of lanes. -/
theorem mean_row
    (x0 : (⟨S50000x128, .f32⟩ : BufTy).Contents (Elt Ideal)) (x1 : (⟨S2x1600000, .i32⟩ : BufTy).Contents (Elt Ideal))
    (x2 : (⟨S1600000x128, .f32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal))
    (r : Fin 50000) :
    val_main_v18 (F := Ideal) x0 x1 x2 x3 x4 x5 x6 (ix2 r (0 : Fin 1))
      = Cert.RowMlp.mean (layersRow x0 x1 x2 x3 x4 x5 x6 r) := by
  rw [val_main_v18_apply, val_main_v16_apply, val_main_v15_apply, val_main_v17_apply, val_main_cst_1_apply,
    val_main_cst_0_apply]
  unfold Cert.RowMlp.mean
  simp only [Ideal.hostDivf_def, Ideal.ofBits_def]
  rw [Ideal.ofBits_zero_f32, zero_add]
  refine congrArg (Ideal.div · Cert.RowMlp.lanes) (Finset.sum_congr rfl fun k _ => ?_)
  rw [idx15_eq, layers_row]

/-! ## The centred row (the program forms it twice) -/

/-- The mean, broadcast over the lanes, is read at the row. -/
theorem idx19_eq (r : Fin 50000) (l : Fin 128) : idx_main_v19 (ix2 r l) = ix2 r (0 : Fin 1) :=
  funext fun a => Fin.ext (by match a with | ⟨0, _⟩ => rfl | ⟨1, _⟩ => rfl)

/-- The same for the second broadcast of the mean. -/
theorem idx26_eq (r : Fin 50000) (l : Fin 128) : idx_main_v26 (ix2 r l) = ix2 r (0 : Fin 1) :=
  funext fun a => Fin.ext (by match a with | ⟨0, _⟩ => rfl | ⟨1, _⟩ => rfl)

/-- Row `r` with its mean subtracted, as the deviation's operand. -/
theorem centred_row
    (x0 : (⟨S50000x128, .f32⟩ : BufTy).Contents (Elt Ideal)) (x1 : (⟨S2x1600000, .i32⟩ : BufTy).Contents (Elt Ideal))
    (x2 : (⟨S1600000x128, .f32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal))
    (r : Fin 50000) (l : Fin 128) :
    val_main_v20 (F := Ideal) x0 x1 x2 x3 x4 x5 x6 (ix2 r l)
      = Cert.RowMlp.centred (layersRow x0 x1 x2 x3 x4 x5 x6 r) l := by
  rw [val_main_v20_apply, val_main_v19_apply, idx19_eq, mean_row, layers_row]
  rfl

/-- Row `r` with its mean subtracted, as the operand of the final scaling. -/
theorem centred_row'
    (x0 : (⟨S50000x128, .f32⟩ : BufTy).Contents (Elt Ideal)) (x1 : (⟨S2x1600000, .i32⟩ : BufTy).Contents (Elt Ideal))
    (x2 : (⟨S1600000x128, .f32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal))
    (r : Fin 50000) (l : Fin 128) :
    val_main_v27 (F := Ideal) x0 x1 x2 x3 x4 x5 x6 (ix2 r l)
      = Cert.RowMlp.centred (layersRow x0 x1 x2 x3 x4 x5 x6 r) l := by
  rw [val_main_v27_apply, val_main_v26_apply, idx26_eq, mean_row, layers_row]
  rfl

/-! ## The mean square deviation -/

/-- The second row sum's index at row `r`, position `k`. -/
theorem idx22_eq (r : Fin 50000) (k : Fin 128) : idx_main_v22 (idx_main_v23 (ix2 r (0 : Fin 1))) k = ix2 r k :=
  funext fun a => Fin.ext (by match a with | ⟨0, _⟩ => rfl | ⟨1, _⟩ => rfl)

/-- The mean square deviation of row `r`: the sum of the squared centred lanes over the number of lanes. -/
theorem spread_row
    (x0 : (⟨S50000x128, .f32⟩ : BufTy).Contents (Elt Ideal)) (x1 : (⟨S2x1600000, .i32⟩ : BufTy).Contents (Elt Ideal))
    (x2 : (⟨S1600000x128, .f32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal))
    (r : Fin 50000) :
    val_main_v25 (F := Ideal) x0 x1 x2 x3 x4 x5 x6 (ix2 r (0 : Fin 1))
      = Cert.RowMlp.spread (layersRow x0 x1 x2 x3 x4 x5 x6 r) := by
  rw [val_main_v25_apply, val_main_v23_apply, val_main_v22_apply, val_main_v24_apply, val_main_cst_3_apply,
    val_main_cst_2_apply]
  unfold Cert.RowMlp.spread
  simp only [Ideal.hostDivf_def, Ideal.ofBits_def]
  rw [Ideal.ofBits_zero_f32, zero_add]
  refine congrArg (Ideal.div · Cert.RowMlp.lanes) (Finset.sum_congr rfl fun k _ => ?_)
  rw [idx22_eq, val_main_v21_apply, centred_row]
  rfl

/-! ## The normalised row -/

/-- The reciprocal root, broadcast over the lanes, is read at the row. -/
theorem idx31_eq (r : Fin 50000) (l : Fin 128) : idx_main_v31 (ix2 r l) = ix2 r (0 : Fin 1) :=
  funext fun a => Fin.ext (by match a with | ⟨0, _⟩ => rfl | ⟨1, _⟩ => rfl)

/-- Row `r`, centred, times the reciprocal root of its mean square deviation plus the small constant. -/
theorem scaled_row
    (x0 : (⟨S50000x128, .f32⟩ : BufTy).Contents (Elt Ideal)) (x1 : (⟨S2x1600000, .i32⟩ : BufTy).Contents (Elt Ideal))
    (x2 : (⟨S1600000x128, .f32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal))
    (r : Fin 50000) (l : Fin 128) :
    val_main_v32 (F := Ideal) x0 x1 x2 x3 x4 x5 x6 (ix2 r l)
      = Cert.RowMlp.scaled (layersRow x0 x1 x2 x3 x4 x5 x6 r) l := by
  rw [val_main_v32_apply, val_main_v31_apply, idx31_eq, val_main_v30_apply, val_main_v29_apply, val_main_v28_apply,
    val_main_cst_4_apply, spread_row, centred_row']
  rfl

/-! ## The result -/

/-- The scale, broadcast over the rows, is read at the lane. -/
theorem scale_idx_eq (r : Fin 50000) (j : Fin 128) : idx_main_v33 (idx_main_v34 (ix2 r j)) = ix1 j :=
  funext fun a => Fin.ext (by match a with | ⟨0, _⟩ => rfl)

/-- The shift, broadcast over the rows, is read at the lane. -/
theorem shift_idx_eq (r : Fin 50000) (j : Fin 128) : idx_main_v36 (idx_main_v37 (ix2 r j)) = ix1 j :=
  funext fun a => Fin.ext (by match a with | ⟨0, _⟩ => rfl)

/-- Element `(r, j)` of the reference's result is lane `j` of the row function at row `r` of the node features and
    row `r` of the aggregate: the normalised row scaled and shifted per lane, plus the node's own row. -/
theorem result_row
    (x0 : (⟨S50000x128, .f32⟩ : BufTy).Contents (Elt Ideal)) (x1 : (⟨S2x1600000, .i32⟩ : BufTy).Contents (Elt Ideal))
    (x2 : (⟨S1600000x128, .f32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 x7 x8 : (⟨S128, .f32⟩ : BufTy).Contents (Elt Ideal)) (r : Fin 50000) (j : Fin 128) :
    val_main_v39 (F := Ideal) x0 x1 x2 x3 x4 x5 x6 x7 x8 (ix2 r j)
      = Cert.RowMlp.rowOut (fun k => x0 (ix2 r k)) (fun k => val_main_v4 (F := Ideal) x1 x2 (ix2 r k))
          (fun k n => x3 (ix2 k n)) (fun n => x4 (ix1 n)) (fun n l => x5 (ix2 n l))
          (fun l => x6 (ix1 l)) (fun l => x7 (ix1 l)) (fun l => x8 (ix1 l)) j := by
  rw [val_main_v39_apply, val_main_v38_apply, val_main_v35_apply, val_main_v34_apply, val_main_v33_apply,
    val_main_v37_apply, val_main_v36_apply, scale_idx_eq, shift_idx_eq, scaled_row]
  rfl

end Cert.ReferenceIdeal.RefRows

end
-- ==== Proof.lean ====
/-
  The idealized kernel and the idealized reference compute the same array.

  Both programs first form the aggregate: the edge features summed onto the rows of their destination nodes, by the
  same four host operations. The reference then treats all 50000 node rows at once; the kernel treats them 2000 at a
  time. In both, a row of the result depends only on the same row of the node features and of the aggregate and on the
  parameters: the two rows are joined, passed through an affine layer, the gate `z · 1/(1 + e^(-z))`, a second affine
  layer, normalised by the row's own mean and mean square deviation, scaled and shifted per lane, and added to the
  node's row. Over the extended reals the kernel's changes of float format are the identity, its matrix products and
  lane sums are plain finite sums like the reference's, and its gate is the reference's expression, so both results are
  the one row function `RowMlp.rowOut` at every index: `KernelRows` for the kernel (block by block, the blocks tiling
  the rows), `RefRows` for the reference. No step uses that the inputs are finite: the two sides are the same
  expression, in the same association.

  The three frames are the generated ones (the reference's is its run with the result dropped); the idealization
  rewrote nothing, so there is nothing to preserve.
-/
import proofs.«133564_j16415365006069_1_alg».proof.Defs
import proofs.«133564_j16415365006069_1_alg».proof.Proof.Gen.Kernel
import proofs.«133564_j16415365006069_1_alg».proof.Proof.Gen.Kernel.Skeleton
import proofs.«133564_j16415365006069_1_alg».proof.Proof.Gen.Kernel.Launch
import proofs.«133564_j16415365006069_1_alg».proof.Proof.Gen.Kernel.Points
import proofs.«133564_j16415365006069_1_alg».proof.Proof.Gen.Kernel.Frame
import proofs.«133564_j16415365006069_1_alg».proof.Proof.Gen.KernelIdeal
import proofs.«133564_j16415365006069_1_alg».proof.Proof.Gen.KernelIdeal.Skeleton
import proofs.«133564_j16415365006069_1_alg».proof.Proof.Gen.KernelIdeal.Launch
import proofs.«133564_j16415365006069_1_alg».proof.Proof.Gen.KernelIdeal.Points
import proofs.«133564_j16415365006069_1_alg».proof.Proof.Gen.KernelIdeal.Frame
import proofs.«133564_j16415365006069_1_alg».proof.Proof.Gen.ReferenceIdeal
import proofs.«133564_j16415365006069_1_alg».proof.Proof.Gen.Pre_finite_inputs
import proofs.«133564_j16415365006069_1_alg».proof.Proof.Gen.KernelIdeal.Value
import proofs.«133564_j16415365006069_1_alg».proof.Proof.Gen.ReferenceIdeal.Run
import proofs.«133564_j16415365006069_1_alg».proof.Proof.Gen.ReferenceIdeal.Read
import proofs.«133564_j16415365006069_1_alg».proof.Proof.KernelRows
import proofs.«133564_j16415365006069_1_alg».proof.Proof.RefRows
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's aggregate is the reference's: the same slice of the edge index array, the same re-laying, the same
    array of zeros and the same scatter-sum of the edge features, operation by operation. -/
theorem aggregate_eq (x1 : (⟨Cert.KernelIdeal.S2x1600000, .i32⟩ : BufTy).Contents (Elt Ideal))
    (x2 : (⟨Cert.KernelIdeal.S1600000x128, .f32⟩ : BufTy).Contents (Elt Ideal)) :
    Cert.KernelIdeal.Rows.aggregate x1 x2 = Cert.ReferenceIdeal.Read.val_main_v4 (F := Ideal) x1 x2 := by
  unfold Cert.KernelIdeal.Rows.aggregate Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst
  rfl

/-- From memories that agree on the arguments both programs end with the same result array: at every index it is
    the row function of the same rows. -/
theorem algebraic : Cert.algebraic_KernelIdeal_ReferenceIdeal := by
  intro m ρ m' ρ' _ hagree
  refine ⟨fun c => Cert.KernelIdeal.Rows.wholeOut m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v39 m' c = Cert.KernelIdeal.Rows.wholeOut m c
  obtain ⟨h0, h1, h2, h3, h4, h5, h6, h7, h8⟩ := hagree c
  rw [Cert.ReferenceIdeal.Read.val_main_v39_eq, h0, h1, h2, h3, h4, h5, h6, h7, h8]
  funext i
  obtain ⟨r, j, rfl⟩ : ∃ (r : Fin 50000) (j : Fin 128), i = ix2 r j := ⟨i 0, i 1, eq_ix2 (n0 := 50000) (n1 := 128) i⟩
  rw [Cert.ReferenceIdeal.RefRows.result_row, Cert.KernelIdeal.Rows.wholeOut_entry, aggregate_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
